-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1024x64x64 : Shape := ⟨3, ![1024, 64, 64]⟩
abbrev S4096 : Shape := ⟨1, ![4096]⟩
abbrev S1024 : Shape := ⟨1, ![1024]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1024x64x64 : S_.BroadcastsInDim S1024x64x64 (![] : Fin 0 → Fin S1024x64x64.rank)
  reducesTo_S1024x64x64_S_d0_1_2 : S1024x64x64.ReducesTo [0, 1, 2] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S1024x64x64 .f32) (main_arg2 : FVec F S4096 .f32) (main_arg3 : IVec S1024 32) (main_arg4 : IVec S1024 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1024x64x64 .f32 := Host.absf main_arg1
  let main_cst_0 : FVec F S_ .f32 := constant S_ .f32 0x7F800000#32
  let main_v5 : FVec F S1024x64x64 .f32 := broadcastInDim S1024x64x64 ![] bcast_S_S1024x64x64 main_cst_0
  let main_v6 : IVec S1024x64x64 1 := cmpf .olt main_v4 main_v5
  let main_c_1 : IVec S_ 1 := constantI S_ 1 1#1
  let main_v7 : IVec S_ 1 := (fun x v => Host.reduce IntOp.andi x v reducesTo_S1024x64x64_S_d0_1_2 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S1024x64x64 : Shape := ⟨3, ![1024, 64, 64]⟩
abbrev S4096 : Shape := ⟨1, ![4096]⟩
abbrev S1024 : Shape := ⟨1, ![1024]⟩
abbrev S_ : Shape := ⟨0, ![]⟩
abbrev S64x64x64x64 : Shape := ⟨4, ![64, 64, 64, 64]⟩
abbrev S1024x1 : Shape := ⟨2, ![1024, 1]⟩
abbrev S1024x2 : Shape := ⟨2, ![1024, 2]⟩
abbrev S4096x4096 : Shape := ⟨2, ![4096, 4096]⟩
abbrev S1x4096 : Shape := ⟨2, ![1, 4096]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩

abbrev nBuf : Space → Nat
  | .hbm => 32
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S1024x64x64, .f32⟩
  | .hbm, ⟨2, _⟩ => ⟨S4096, .f32⟩
  | .hbm, ⟨3, _⟩ => ⟨S1024, .i32⟩
  | .hbm, ⟨4, _⟩ => ⟨S1024, .i32⟩
  | .hbm, ⟨5, _⟩ => ⟨S_, .f32⟩
  | .hbm, ⟨6, _⟩ => ⟨S64x64x64x64, .f32⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S1024x1, .i32⟩
  | .hbm, ⟨22, _⟩ => ⟨S1024x1, .i32⟩
  | .hbm, ⟨23, _⟩ => ⟨S1024x2, .i32⟩
  | .hbm, ⟨24, _⟩ => ⟨S64x64x64x64, .f32⟩
  | .hbm, ⟨25, _⟩ => ⟨S64x64x64x64, .f32⟩
  | .hbm, ⟨26, _⟩ => ⟨S4096x4096, .f32⟩
  | .hbm, ⟨27, _⟩ => ⟨S4096x4096, .f32⟩
  | .hbm, ⟨28, _⟩ => ⟨S8192x4096, .bf16⟩
  | .hbm, ⟨29, _⟩ => ⟨S4096x4096, .bf16⟩
  | .hbm, ⟨30, _⟩ => ⟨S1x4096, .f32⟩
  | .hbm, ⟨31, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S64x64x64x64 : S_.BroadcastsInDim S64x64x64x64 (![] : Fin 0 → Fin S64x64x64x64.rank)
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  transposes_S64x64x64x64_S64x64x64x64_0_2_1_3 : S64x64x64x64.Transposes [0, 2, 1, 3] S64x64x64x64
  shapeCasts_S64x64x64x64_S4096x4096 : S64x64x64x64.ShapeCasts S4096x4096
  transposes_S4096x4096_S4096x4096_1_0 : S4096x4096.Transposes [1, 0] S4096x4096
  bitsLt_bf16_f32 : FTy.bits .bf16 < FTy.bits .f32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  scatter_S64x64x64x64_S1024x2_S1024x64x64_12_01_01_1_wf : ScatterDims.WF S64x64x64x64 S1024x2 S1024x64x64 [1, 2] [0, 1] [0, 1] 1
  dot_S1024x4096_S4096x1024_S1024x1024_1_0_0_1_n_n_wf : DotDims.WF S1024x4096 S4096x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def scatter_S64x64x64x64_S1024x2_S1024x64x64_12_01_01_1 : ScatterDims S64x64x64x64 S1024x2 S1024x64x64 where
  updateWindowDims := [1, 2]
  insertedWindowDims := [0, 1]
  scatterDimsToOperandDims := [0, 1]
  indexVectorDim := 1
  wf := scatter_S64x64x64x64_S1024x2_S1024x64x64_12_01_01_1_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf

abbrev win0_0 : Pipeline.Window sig grid0 :=
  Pipeline.Window.ofSpec (Memref.whole main_v18) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S1024x64x64 : Shape := ⟨3, ![1024, 64, 64]⟩
abbrev S4096 : Shape := ⟨1, ![4096]⟩
abbrev S1024 : Shape := ⟨1, ![1024]⟩
abbrev S_ : Shape := ⟨0, ![]⟩
abbrev S64x64x64x64 : Shape := ⟨4, ![64, 64, 64, 64]⟩
abbrev S1024x1 : Shape := ⟨2, ![1024, 1]⟩
abbrev S1024x2 : Shape := ⟨2, ![1024, 2]⟩
abbrev S4096x4096 : Shape := ⟨2, ![4096, 4096]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x64x64, .f32⟩
  | .hbm, ⟨2, _⟩ => ⟨S4096, .f32⟩
  | .hbm, ⟨3, _⟩ => ⟨S1024, .i32⟩
  | .hbm, ⟨4, _⟩ => ⟨S1024, .i32⟩
  | .hbm, ⟨5, _⟩ => ⟨S_, .f32⟩
  | .hbm, ⟨6, _⟩ => ⟨S64x64x64x64, .f32⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S1024x1, .i32⟩
  | .hbm, ⟨22, _⟩ => ⟨S1024x1, .i32⟩
  | .hbm, ⟨23, _⟩ => ⟨S1024x2, .i32⟩
  | .hbm, ⟨24, _⟩ => ⟨S64x64x64x64, .f32⟩
  | .hbm, ⟨25, _⟩ => ⟨S64x64x64x64, .f32⟩
  | .hbm, ⟨26, _⟩ => ⟨S4096x4096, .f32⟩
  | .hbm, ⟨27, _⟩ => ⟨S4096x4096, .f32⟩
  | .hbm, ⟨28, _⟩ => ⟨S8192x4096, .f32⟩
  | .hbm, ⟨29, _⟩ => ⟨S1x4096, .f32⟩
  | .hbm, ⟨30, _⟩ => ⟨S8192x4096, .f32⟩
  | .hbm, ⟨31, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S64x64x64x64 : S_.BroadcastsInDim S64x64x64x64 (![] : Fin 0 → Fin S64x64x64x64.rank)
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  transposes_S64x64x64x64_S64x64x64x64_0_2_1_3 : S64x64x64x64.Transposes [0, 2, 1, 3] S64x64x64x64
  shapeCasts_S64x64x64x64_S4096x4096 : S64x64x64x64.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  scatter_S64x64x64x64_S1024x2_S1024x64x64_12_01_01_1_wf : ScatterDims.WF S64x64x64x64 S1024x2 S1024x64x64 [1, 2] [0, 1] [0, 1] 1
  dot_S8192x4096_S4096x4096_S8192x4096_1_0_0_1_n_n_wf : DotDims.WF S8192x4096 S4096x4096 S8192x4096 [1] [0] [0] [1] [] []

variable [Facts₀]

def scatter_S64x64x64x64_S1024x2_S1024x64x64_12_01_01_1 : ScatterDims S64x64x64x64 S1024x2 S1024x64x64 where
  updateWindowDims := [1, 2]
  insertedWindowDims := [0, 1]
  scatterDimsToOperandDims := [0, 1]
  indexVectorDim := 1
  wf := scatter_S64x64x64x64_S1024x2_S1024x64x64_12_01_01_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.KernelTile.lean ====
/-
  One output tile of the kernel, entry by entry, on the extended reals.

  At a grid point the body loads a [1024, 4096] tile of x, a [4096, 1024] tile of the transposed dense weight and a
  [1, 1024] piece of the bias row, multiplies the first two into a zero accumulator and adds the bias row down the rows.
  So entry (a, b) of the stored tile is the sum over k of xt[a,k] · wt[k,b], plus bt[0,b].
-/
import proofs.«157286_j47304769798157_1_alg».proof.Proof.Gen.KernelIdeal.Skeleton
import proofs.«157286_j47304769798157_1_alg».proof.Proof.LibPlainDot
import proofs.«157286_j47304769798157_1_alg».proof.Proof.LibRowBias
import Idealize.ShloMosaic.Lib.Pipeline.Value

noncomputable section

open scoped BigOperators

namespace Cert.KernelIdeal.Tile

open Cert.KernelIdeal Cert.KernelIdeal.Gen Idealize.ShloMosaic Idealize.ShloMosaic.ValueIdx

/-- The kernel's contraction record is the plain M×K by K×N one. -/
theorem dot_eq_plain : dot_S1024x4096_S4096x1024_S1024x1024_1_0_0_1_n_n = DotDims.plain 1024 4096 1024 := rfl

/-- Entry (a, b) of the tile the body stores. -/
theorem tile_apply (xt : Vec Ideal S1024x4096 .bf16) (wt : Vec Ideal S4096x1024 .bf16) (bt : Vec Ideal S1x1024 .f32) (a b : Fin 1024) :
    k0_pay1 (F := Ideal) xt wt bt (ix2 a b) = (∑ k : Fin 4096, xt (ix2 a k) * wt (ix2 k b)) + bt (ix2 (0 : Fin 1) b) := by
  unfold k0_pay1
  simp only [shapeCast_self]
  show FloatOps.addf (F := Ideal) (matmul dot_S1024x4096_S4096x1024_S1024x1024_1_0_0_1_n_n none xt wt (constant S1024x1024 .f32 0x00000000#32) (ix2 a b))
      (broadcastTo S1024x1024 bt broadcasts_S1x1024_S1024x1024 (ix2 a b)) = _
  rw [dot_eq_plain]
  exact congrArg₂ (FloatOps.addf (F := Ideal) (φ := .f32)) (Cert.PlainDot.matmul_zero_apply none xt wt a b)
    (Cert.RowBias.rows_apply bt broadcasts_S1x1024_S1024x1024 a b)

end Cert.KernelIdeal.Tile

end
-- ==== Proof.Spec.lean ====
/-
  The function both programs compute, as one formula on the extended reals.

  For a token matrix x [8192, 4096], a dense weight already transposed wt [4096 (in), 4096 (out)] and a bias b [4096],
  the output at (p, q) is the sum over k of x[p,k] · wt[k,q], plus b[q]. How wt is assembled from the 64×64 blocks
  (a scatter, two transposes and a reshape) is the same text in both programs and is never opened here.
-/
import Idealize.ShloMosaic.PureOps.Ideal
import Idealize.ShloMosaic.Lib.ValueIdx

noncomputable section

open scoped BigOperators

namespace Cert.DenseAffine

open Idealize.ShloMosaic Idealize.ShloMosaic.ValueIdx

/-- y[p,q] = Σ_k x[p,k] · wt[k,q] + b[q]. -/
def affine (x : (⟨2, ![8192, 4096]⟩ : Shape).Idx → EReal) (wt : (⟨2, ![4096, 4096]⟩ : Shape).Idx → EReal)
    (b : (⟨1, ![4096]⟩ : Shape).Idx → EReal) : (⟨2, ![8192, 4096]⟩ : Shape).Idx → EReal :=
  fun i => (∑ k : Fin 4096, x (ix2 (i 0) k) * wt (ix2 k (i 1))) + b (ix1 (i 1))

theorem affine_apply (x : (⟨2, ![8192, 4096]⟩ : Shape).Idx → EReal) (wt : (⟨2, ![4096, 4096]⟩ : Shape).Idx → EReal)
    (b : (⟨1, ![4096]⟩ : Shape).Idx → EReal) (p : Fin 8192) (q : Fin 4096) :
    affine x wt b (ix2 p q) = (∑ k : Fin 4096, x (ix2 p k) * wt (ix2 k q)) + b (ix1 q) := rfl

end Cert.DenseAffine

end
-- ==== Proof.KernelBlocks.lean ====
/-
  The kernel's result array as one formula of the argument arrays.

  The grid is 8 × 4: point (i, j) takes rows 1024·i … 1024·i + 1023 of x (all 4096 columns), columns
  1024·j … 1024·j + 1023 of the transposed dense weight (all 4096 rows) and of the bias row, and writes tile (i, j) of the
  output. Entry (a, b) of that tile is the sum over k of xt[a,k] · wt[k,b] plus bt[0,b], which is entry
  (1024·i + a, 1024·j + b) of the whole-array formula; the 32 tiles cover the output.
-/
import proofs.«157286_j47304769798157_1_alg».proof.Proof.Gen.KernelIdeal.Value
import proofs.«157286_j47304769798157_1_alg».proof.Proof.KernelTile
import proofs.«157286_j47304769798157_1_alg».proof.Proof.Spec
import Idealize.ShloMosaic.Lib.Pipeline.Value

noncomputable section

open scoped BigOperators

namespace Cert.KernelIdeal.Whole

open Cert.KernelIdeal Cert.KernelIdeal.Gen Cert.KernelIdeal.Value Idealize.ShloMosaic Idealize.ShloMosaic.ValueIdx
open Idealize.ShloMosaic.TcCoe Idealize.SL.Sem
open Idealize.ShloMosaic.Pipeline (Dat)
open Cert.DenseAffine (affine affine_apply)

variable (m : (ℓ : Loc nD τ sig) → Buf (Elt Ideal) ℓ) (ρ : Dev nD → PrngReg)

theorem hz : (![0, 0] : Fin 2 → Nat) = fun _ => 0 := funext fun a => by fin_cases a <;> rfl

/-! ## The arrays the call reads, and their blocks, at their literal types -/

/-- x narrowed to bf16, as the call finds it. -/
abbrev xarr (c : Dev nD) : Vec Ideal S8192x4096 .bf16 := V m c main_v18
/-- The transposed dense weight narrowed to bf16, as the call finds it. -/
abbrev warr (c : Dev nD) : Vec Ideal S4096x4096 .bf16 := V m c main_v19
/-- The bias as one row, as the call finds it. -/
abbrev barr (c : Dev nD) : Vec Ideal S1x4096 .f32 := V m c main_v20

abbrev xblk (c : Dev nD) (t : Fin cfg0.N) : Vec Ideal S1024x4096 .bf16 := iblk m c 0 t
abbrev wblk (c : Dev nD) (t : Fin cfg0.N) : Vec Ideal S4096x1024 .bf16 := iblk m c 1 t
abbrev bblk (c : Dev nD) (t : Fin cfg0.N) : Vec Ideal S1x1024 .f32 := iblk m c 2 t

/-- The printed index maps over the 32 points: the output's tile at point t is (t / 4, t % 4); x's tile follows the
    output's row block, the weight's and the bias's tiles follow its column block, and the other block index of each is 0. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) = t.val / 4 ∧ win0_3.index t (1 : Fin 2) = t.val % 4 :=
  (by decide +kernel : ∀ t : Fin grid0.N, _)

/-- A tile of an array at point t, entry y, is the array at the index whose coordinates are block index × block size + y's.
    Stated for any array in place of the ones the call reads, once per input window. -/
theorem read_x (t : Fin cfg0.N) (X : Vec Ideal S8192x4096 .bf16) (y : S1024x4096.Idx) (i : S8192x4096.Idx)
    (h0 : win0_0.index t (0 : Fin 2) * 1024 + 1 * (y 0).val = (i 0).val)
    (h1 : win0_0.index t (1 : Fin 2) * 4096 + 1 * (y 1).val = (i 1).val) :
    (((cfg0.win 0).blk t).view.read (Elt Ideal) X : Vec Ideal S1024x4096 .bf16) y = X i := by
  show X (((cfg0.win 0).blk t).view.emb y) = X i
  refine congrArg X (funext fun a => Fin.ext ?_)
  match a with
  | ⟨0, _⟩ => exact h0
  | ⟨1, _⟩ => exact h1

theorem read_w (t : Fin cfg0.N) (X : Vec Ideal S4096x4096 .bf16) (y : S4096x1024.Idx) (i : S4096x4096.Idx)
    (h0 : win0_1.index t (0 : Fin 2) * 4096 + 1 * (y 0).val = (i 0).val)
    (h1 : win0_1.index t (1 : Fin 2) * 1024 + 1 * (y 1).val = (i 1).val) :
    (((cfg0.win 1).blk t).view.read (Elt Ideal) X : Vec Ideal S4096x1024 .bf16) y = X i := by
  show X (((cfg0.win 1).blk t).view.emb y) = X i
  refine congrArg X (funext fun a => Fin.ext ?_)
  match a with
  | ⟨0, _⟩ => exact h0
  | ⟨1, _⟩ => exact h1

theorem read_b (t : Fin cfg0.N) (X : Vec Ideal S1x4096 .f32) (y : S1x1024.Idx) (i : S1x4096.Idx)
    (h0 : win0_2.index t (0 : Fin 2) * 1 + 1 * (y 0).val = (i 0).val)
    (h1 : win0_2.index t (1 : Fin 2) * 1024 + 1 * (y 1).val = (i 1).val) :
    (((cfg0.win 2).blk t).view.read (Elt Ideal) X : Vec Ideal S1x1024 .f32) y = X i := by
  show X (((cfg0.win 2).blk t).view.emb y) = X i
  refine congrArg X (funext fun a => Fin.ext ?_)
  match a with
  | ⟨0, _⟩ => exact h0
  | ⟨1, _⟩ => exact h1

/-- The three input tiles at point t, read off the arrays the call finds. -/
theorem xblk_apply (c : Dev nD) (t : Fin cfg0.N) (y : S1024x4096.Idx) (i : S8192x4096.Idx)
    (h0 : win0_0.index t (0 : Fin 2) * 1024 + 1 * (y 0).val = (i 0).val)
    (h1 : win0_0.index t (1 : Fin 2) * 4096 + 1 * (y 1).val = (i 1).val) :
    xblk m c t y = xarr m c i := read_x t (xarr m c) y i h0 h1

theorem wblk_apply (c : Dev nD) (t : Fin cfg0.N) (y : S4096x1024.Idx) (i : S4096x4096.Idx)
    (h0 : win0_1.index t (0 : Fin 2) * 4096 + 1 * (y 0).val = (i 0).val)
    (h1 : win0_1.index t (1 : Fin 2) * 1024 + 1 * (y 1).val = (i 1).val) :
    wblk m c t y = warr m c i := read_w t (warr m c) y i h0 h1

theorem bblk_apply (c : Dev nD) (t : Fin cfg0.N) (y : S1x1024.Idx) (i : S1x4096.Idx)
    (h0 : win0_2.index t (0 : Fin 2) * 1 + 1 * (y 0).val = (i 0).val)
    (h1 : win0_2.index t (1 : Fin 2) * 1024 + 1 * (y 1).val = (i 1).val) :
    bblk m c t y = barr m c i := read_b t (barr m c) y i h0 h1

/-! ## What a point writes back -/

/-- Entry y of the tile point t stores is the whole-array formula at the array index i that y has in the output. -/
theorem tile_eq (c : Dev nD) (t : Fin cfg0.N) (y : S1024x1024.Idx) (i : S8192x4096.Idx)
    (h0 : win0_3.index t (0 : Fin 2) * 1024 + 1 * (y 0).val = (i 0).val)
    (h1 : win0_3.index t (1 : Fin 2) * 1024 + 1 * (y 1).val = (i 1).val) :
    k0_pay1 (F := Ideal) (xblk m c t) (wblk m c t) (bblk m c t) y
      = affine (xarr m c) (warr m c) (fun j => barr m c (ix2 (0 : Fin 1) (j 0))) i := by
  obtain ⟨a, b, rfl⟩ : ∃ (a b : Fin 1024), y = ix2 a b := ⟨y 0, y 1, eq_ix2 y⟩
  obtain ⟨p, q, rfl⟩ : ∃ (p : Fin 8192) (q : Fin 4096), i = ix2 p q := ⟨i 0, i 1, eq_ix2 i⟩
  have h0' : win0_3.index t (0 : Fin 2) * 1024 + 1 * a.val = p.val := h0
  have h1' : win0_3.index t (1 : Fin 2) * 1024 + 1 * b.val = q.val := h1
  obtain ⟨e0, e1, e2, e3, e4, e5, -, -⟩ := idx_facts t
  refine (Cert.KernelIdeal.Tile.tile_apply (xblk m c t) (wblk m c t) (bblk m c t) a b).trans ?_
  rw [affine_apply]
  refine congrArg₂ (· + ·) (Finset.sum_congr rfl fun k _ => congrArg₂ (· * ·)
    (xblk_apply m c t (ix2 a k) (ix2 p k) ?_ ?_) (wblk_apply m c t (ix2 k b) (ix2 k q) ?_ ?_))
    (bblk_apply m c t (ix2 (0 : Fin 1) b) (ix2 (0 : Fin 1) q) ?_ ?_)
  · show win0_0.index t (0 : Fin 2) * 1024 + 1 * a.val = p.val; omega
  · show win0_0.index t (1 : Fin 2) * 4096 + 1 * k.val = k.val; omega
  · show win0_1.index t (0 : Fin 2) * 4096 + 1 * k.val = k.val; omega
  · show win0_1.index t (1 : Fin 2) * 1024 + 1 * b.val = q.val; omega
  · show win0_2.index t (0 : Fin 2) * 1 + 1 * 0 = 0; omega
  · show win0_2.index t (1 : Fin 2) * 1024 + 1 * b.val = q.val; omega

/-- What point t writes back is tile t of the formula of the arrays the call reads. -/
theorem flushed_eq (c : Dev nD) (t : Fin cfg0.N) :
    (dats m 0 c).flushed 3 t = ((cfg0.win 3).blk t).view.read (Elt Ideal)
      (affine (xarr m c) (warr m c) (fun j => barr m c (ix2 (0 : Fin 1) (j 0)))) := by
  rw [flushed3]
  unfold out0_3
  rw [View.canon_unit_zero hz]
  simp only [View.ld_unit_zero (S := S1024x4096) hz, View.ld_unit_zero (S := S4096x1024) hz, View.ld_unit_zero (S := S1x1024) hz]
  funext j
  exact tile_eq m c t j (((cfg0.win 3).blk t).view.emb j) rfl rfl

/-! ## The tiles cover the output -/

theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v21).slice (win0_3.rect t)).set ↔ _
  rw [View.set_slice_whole, Rect.mem_set_unit]
  exact Iff.rfl

/-- Output index (p, q) lies in the tile of point 4 · (p / 1024) + q / 1024. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 32 := N_0
  have ht : (i 0).val / 1024 * 4 + (i 1).val / 1024 < cfg0.N := by rw [hN]; omega
  obtain ⟨-, -, -, -, -, -, q0, q1⟩ := idx_facts ⟨(i 0).val / 1024 * 4 + (i 1).val / 1024, ht⟩
  have q0' : win0_3.index ⟨(i 0).val / 1024 * 4 + (i 1).val / 1024, ht⟩ (0 : Fin 2) = (i 0).val / 1024 := by
    rw [q0]; show ((i 0).val / 1024 * 4 + (i 1).val / 1024) / 4 = (i 0).val / 1024; omega
  have q1' : win0_3.index ⟨(i 0).val / 1024 * 4 + (i 1).val / 1024, ht⟩ (1 : Fin 2) = (i 1).val / 1024 := by
    rw [q1]; show ((i 0).val / 1024 * 4 + (i 1).val / 1024) % 4 = (i 1).val / 1024; omega
  refine ⟨⟨(i 0).val / 1024 * 4 + (i 1).val / 1024, ht⟩, flush0_3 _, ?_⟩
  rw [mem_blk]
  intro a
  match a with
  | ⟨0, _⟩ =>
    show win0_3.index ⟨(i 0).val / 1024 * 4 + (i 1).val / 1024, ht⟩ (0 : Fin 2) * 1024 ≤ (i 0).val
      ∧ (i 0).val < win0_3.index ⟨(i 0).val / 1024 * 4 + (i 1).val / 1024, ht⟩ (0 : Fin 2) * 1024 + 1024
    rw [q0']; omega
  | ⟨1, _⟩ =>
    show win0_3.index ⟨(i 0).val / 1024 * 4 + (i 1).val / 1024, ht⟩ (1 : Fin 2) * 1024 ≤ (i 1).val
      ∧ (i 1).val < win0_3.index ⟨(i 0).val / 1024 * 4 + (i 1).val / 1024, ht⟩ (1 : Fin 2) * 1024 + 1024
    rw [q1']; omega

/-- The output array after the run, over the arrays the call reads. -/
theorem final (c : Dev nD) :
    (dats m 0 c).arrAt 3 cfg0.N = affine (xarr m c) (warr m c) (fun j => barr m c (ix2 (0 : Fin 1) (j 0))) :=
  (dats m 0 c).arrAt_eq_of_cover 3 _ (fun t _ => flushed_eq m c t) cover

end Cert.KernelIdeal.Whole

end
-- ==== Proof.KernelHost.lean ====
/-
  The host operations before the call, read on the extended reals.

  Before the call @main assembles the transposed dense weight from the 64×64 blocks, narrows x and that weight to bf16,
  and lays the bias vector out as one row [1, 4096]. On the extended reals narrowing a float is the identity, so the call
  finds x itself and the transposed dense weight itself; entry (0, q) of the bias row is the bias at q.
-/
import proofs.«157286_j47304769798157_1_alg».proof.Proof.Gen.KernelIdeal.Frame
import proofs.«157286_j47304769798157_1_alg».proof.Proof.LibRowBias
import Idealize.ShloMosaic.Lib.Pipeline.Value
import Idealize.ShloMosaic.Lib.StableHlo.Run

noncomputable section

namespace Cert.KernelIdeal.HostPart

open Cert.KernelIdeal Cert.KernelIdeal.Gen Idealize.ShloMosaic Idealize.ShloMosaic.ValueIdx
open Idealize.ShloMosaic.TcCoe Idealize.SL.Sem Idealize.ShloMosaic.StableHlo

variable (m : (ℓ : Loc nD τ sig) → Buf (Elt Ideal) ℓ)

/-- The transposed dense weight [in, out] as @main assembles it: negative block numbers wrapped by 64, the 1024 blocks
    scattered into a zero [64, 64, 64, 64] array at (row block, column block), the two middle axes swapped, the result
    reshaped to [4096, 4096] and transposed. The reference assembles its own by the same operations. -/
def denseT (x1 : Vec Ideal S1024x64x64 .f32) (x3 x4 : IVec S1024 32) : FVec Ideal S4096x4096 .f32 :=
  transpose S4096x4096 [1, 0] (shapeCast _ (transpose S64x64x64x64 [0, 2, 1, 3] (Host.scatter scatter_S64x64x64x64_S1024x2_S1024x64x64_12_01_01_1 (fun _ b => b) (broadcastInDim S64x64x64x64 ![] bcast_S_S64x64x64x64 (constant (F := Ideal) S_ .f32 0x00000000#32)) (concatenate S1024x2 1 [⟨S1024x1, (broadcastInDim S1024x1 ![0] bcast_S1024_S1024x1_0 (select (cmpi .slt x3 (broadcastInDim S1024 ![] bcast_S_S1024 (constantI S_ 32 0#32))) (addi x3 (broadcastInDim S1024 ![] bcast_S_S1024 (constantI S_ 32 64#32))) x3))⟩, ⟨S1024x1, (broadcastInDim S1024x1 ![0] bcast_S1024_S1024x1_0 (select (cmpi .slt x4 (broadcastInDim S1024 ![] bcast_S_S1024 (constantI S_ 32 0#32))) (addi x4 (broadcastInDim S1024 ![] bcast_S_S1024 (constantI S_ 32 64#32))) x4))⟩] concatenates_S1024x1_S1024x1_S1024x2_d1) x1) transposes_S64x64x64x64_S64x64x64x64_0_2_1_3) shapeCasts_S64x64x64x64_S4096x4096) transposes_S4096x4096_S4096x4096_1_0

/-- Narrowing to bf16 is the identity on the extended reals: the call finds x itself. -/
theorem x_eq (c : Dev nD) : (V m c main_v18 : S8192x4096.Idx → EReal) = (m ((c : Thread nD τ).loc main_arg0) : S8192x4096.Idx → EReal) := by
  dsimp only [V, hostOps0]; after_results; rfl

set_option maxHeartbeats 2000000 in
/-- The call finds the transposed dense weight narrowed to bf16, -/
theorem w_narrowed (c : Dev nD) : (V m c main_v19 : S4096x4096.Idx → EReal)
    = truncf .bf16 (denseT (m ((c : Thread nD τ).loc main_arg1)) (m ((c : Thread nD τ).loc main_arg3)) (m ((c : Thread nD τ).loc main_arg4))) bitsLt_bf16_f32 := by
  unfold denseT
  dsimp only [V, hostOps0]; after_results; rfl

/-- which on the extended reals is the transposed dense weight itself. -/
theorem w_eq (c : Dev nD) : (V m c main_v19 : S4096x4096.Idx → EReal)
    = denseT (m ((c : Thread nD τ).loc main_arg1)) (m ((c : Thread nD τ).loc main_arg3)) (m ((c : Thread nD τ).loc main_arg4)) :=
  (w_narrowed m c).trans (funext fun i => truncf_apply _ bitsLt_bf16_f32 i)

/-- The bias row the call finds is the bias vector laid out as [1, 4096]. -/
theorem b_eq (c : Dev nD) : (V m c main_v20 : S1x4096.Idx → EReal)
    = shapeCast S1x4096 (m ((c : Thread nD τ).loc main_arg2) : S4096.Idx → EReal) shapeCasts_S4096_S1x4096 := by
  dsimp only [V, hostOps0]; after_results; rfl

/-- so its entry (0, q) is the bias at q. -/
theorem bias_eq (c : Dev nD) : (fun j : S4096.Idx => (V m c main_v20 : S1x4096.Idx → EReal) (ix2 (0 : Fin 1) (j 0)))
    = (m ((c : Thread nD τ).loc main_arg2) : S4096.Idx → EReal) := by
  funext j
  rw [b_eq]
  exact (Cert.RowBias.ofVec_apply (m ((c : Thread nD τ).loc main_arg2) : S4096.Idx → EReal) shapeCasts_S4096_S1x4096 (j 0)).trans
    (congrArg _ (eq_ix1 j).symm)

end Cert.KernelIdeal.HostPart

end
-- ==== Proof.KernelRun.lean ====
/-
  The kernel's run, read: the output array is the one formula of x, the transposed dense weight and the bias.
-/
import proofs.«157286_j47304769798157_1_alg».proof.Proof.KernelBlocks
import proofs.«157286_j47304769798157_1_alg».proof.Proof.KernelHost

noncomputable section

namespace Cert.KernelIdeal.Whole

open Cert.KernelIdeal Cert.KernelIdeal.Gen Cert.KernelIdeal.Value Idealize.ShloMosaic Idealize.ShloMosaic.ValueIdx
open Idealize.ShloMosaic.TcCoe Idealize.SL.Sem
open Cert.DenseAffine (affine)
open Cert.KernelIdeal.HostPart (denseT)

variable (m : (ℓ : Loc nD τ sig) → Buf (Elt Ideal) ℓ) (ρ : Dev nD → PrngReg)

/-- The output array after the run: the arrays the call reads are x, the transposed dense weight and the bias row. -/
theorem result_eq (c : Dev nD) : (dats m 0 c).arrAt 3 cfg0.N
    = affine (m ((c : Thread nD τ).loc main_arg0))
        (denseT (m ((c : Thread nD τ).loc main_arg1)) (m ((c : Thread nD τ).loc main_arg3)) (m ((c : Thread nD τ).loc main_arg4)))
        (m ((c : Thread nD τ).loc main_arg2)) :=
  (final m c).trans (congr (congr (congrArg affine (HostPart.x_eq m c)) (HostPart.w_eq m c)) (HostPart.bias_eq m c))

theorem run : θ_run defs (onTc (τ := τ) (main (F := Ideal))) ⟨m, fun _ => 0, ρ⟩ fun r => ∀ c : Dev nD,
      r.2.mem ((c : Thread nD τ).loc main_v21)
        = affine (m ((c : Thread nD τ).loc main_arg0))
            (denseT (m ((c : Thread nD τ).loc main_arg1)) (m ((c : Thread nD τ).loc main_arg3)) (m ((c : Thread nD τ).loc main_arg4)))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_eq m c), (h c).2⟩) (run_blocks m ρ)

end Cert.KernelIdeal.Whole

end
-- ==== Proof.Reference.lean ====
/-
  The reference, entry by entry: x @ W.T + bias is the one formula.

  The reference contracts x's second axis with the first axis of the transposed dense weight and adds the bias,
  broadcast first to one row and then down the rows. Read at (p, q) that is the sum over k of x[p,k] · wt[k,q], plus
  b[q], where wt is the reference's own transposed weight; the assembly of wt from the blocks is left closed.
-/
import proofs.«157286_j47304769798157_1_alg».proof.Proof.Gen.ReferenceIdeal.Read
import proofs.«157286_j47304769798157_1_alg».proof.Proof.Spec

noncomputable section

open scoped BigOperators

namespace Cert.ReferenceIdeal.Bridge

open Cert.ReferenceIdeal Cert.ReferenceIdeal.Gen Cert.ReferenceIdeal.Read Idealize.ShloMosaic Idealize.ShloMosaic.ValueIdx

theorem lhs_at (p : Fin 8192) (q k : Fin 4096) : lidx_main_v18 (ix2 p q) k = ix2 p k :=
  funext fun a => match a with | ⟨0, _⟩ => rfl | ⟨1, _⟩ => rfl

theorem rhs_at (p : Fin 8192) (q k : Fin 4096) : ridx_main_v18 (ix2 p q) k = ix2 k q :=
  funext fun a => match a with | ⟨0, _⟩ => rfl | ⟨1, _⟩ => rfl

theorem bias_at (p : Fin 8192) (q : Fin 4096) : idx_main_v19 (idx_main_v20 (ix2 p q)) = ix1 q :=
  funext fun a => match a with | ⟨0, _⟩ => rfl

/-- The reference's result is the formula of x, its transposed dense weight and the bias. -/
theorem result_eq_affine (x0 : (⟨S8192x4096, .f32⟩ : BufTy).Contents (Elt Ideal)) (x1 : (⟨S1024x64x64, .f32⟩ : BufTy).Contents (Elt Ideal))
    (x2 : (⟨S4096, .f32⟩ : BufTy).Contents (Elt Ideal)) (x3 x4 : (⟨S1024, .i32⟩ : BufTy).Contents (Elt Ideal)) :
    val_main_v21 (F := Ideal) x0 x1 x2 x3 x4 = Cert.DenseAffine.affine x0 (val_main_v17 (F := Ideal) x1 x3 x4) x2 := by
  funext i
  obtain ⟨p, q, rfl⟩ : ∃ (p : Fin 8192) (q : Fin 4096), i = ix2 p q := ⟨i 0, i 1, eq_ix2 i⟩
  rw [val_main_v21_apply, val_main_v18_apply, val_main_v20_apply, val_main_v19_apply, Cert.DenseAffine.affine_apply]
  simp only [lhs_at, rhs_at, bias_at]
  rfl

end Cert.ReferenceIdeal.Bridge

end
-- ==== Proof.SameWeight.lean ====
/-
  The two programs assemble the transposed dense weight by the same operations.

  Both wrap negative block numbers by 64, scatter the 1024 blocks into a zero [64, 64, 64, 64] array at
  (row block, column block), swap the two middle axes, reshape to [4096, 4096] and transpose. The two terms differ only in
  which program's side conditions they cite, so they are one function of the blocks and the two index vectors; the scatter
  is never opened.
-/
import proofs.«157286_j47304769798157_1_alg».proof.Proof.KernelHost
import proofs.«157286_j47304769798157_1_alg».proof.Proof.Gen.ReferenceIdeal.Read

noncomputable section

namespace Cert.Proof.SameWeight

open Idealize.ShloMosaic

theorem denseT_eq (x1 : Vec Ideal Cert.KernelIdeal.S1024x64x64 .f32) (x3 x4 : IVec Cert.KernelIdeal.S1024 32) :
    Cert.KernelIdeal.HostPart.denseT x1 x3 x4 = Cert.ReferenceIdeal.Read.val_main_v17 (F := Ideal) x1 x3 x4 := rfl

end Cert.Proof.SameWeight

end
-- ==== Proof.lean ====
/- Block-sparse linear layer as a dense matrix product: y = x @ W.T + bias on the extended reals.

   Both programs first densify the block-sparse weight the same way (the 1024 blocks of 64×64 scattered into a zero
   [64, 64, 64, 64] array at (row block, column block), axes swapped and reshaped to W [4096 out, 4096 in]) and transpose
   it to wt [in, out]. The reference then contracts x's second axis with wt's first and adds the bias down the rows. The
   kernel narrows x and wt to bf16, which is the identity on the extended reals, lays the bias out as one row, and on an
   8 × 4 grid computes the [1024, 1024] tile (i, j) of the output from rows 1024·i … of x and columns 1024·j … of wt and
   of the bias row: a product into a zero accumulator plus the bias row. Entry (p, q) is on both sides the sum over k of
   x[p,k] · wt[k,q], plus bias[q], with the terms in the same order, so no law of the extended reals beyond reading the
   two products as that sum is used, and the finiteness of the inputs is not needed. The 32 tiles cover the output.
   The idealization rewrote nothing, so there is nothing to preserve beyond the programs' own text. -/
import proofs.«157286_j47304769798157_1_alg».proof.Defs
import proofs.«157286_j47304769798157_1_alg».proof.Proof.Gen.Kernel
import proofs.«157286_j47304769798157_1_alg».proof.Proof.Gen.Kernel.Skeleton
import proofs.«157286_j47304769798157_1_alg».proof.Proof.Gen.Kernel.Launch
import proofs.«157286_j47304769798157_1_alg».proof.Proof.Gen.Kernel.Points
import proofs.«157286_j47304769798157_1_alg».proof.Proof.Gen.Kernel.Frame
import proofs.«157286_j47304769798157_1_alg».proof.Proof.Gen.KernelIdeal
import proofs.«157286_j47304769798157_1_alg».proof.Proof.Gen.KernelIdeal.Skeleton
import proofs.«157286_j47304769798157_1_alg».proof.Proof.Gen.KernelIdeal.Launch
import proofs.«157286_j47304769798157_1_alg».proof.Proof.Gen.KernelIdeal.Points
import proofs.«157286_j47304769798157_1_alg».proof.Proof.Gen.KernelIdeal.Frame
import proofs.«157286_j47304769798157_1_alg».proof.Proof.Gen.ReferenceIdeal
import proofs.«157286_j47304769798157_1_alg».proof.Proof.Gen.Pre_finite_inputs
import proofs.«157286_j47304769798157_1_alg».proof.Proof.Gen.KernelIdeal.Value
import proofs.«157286_j47304769798157_1_alg».proof.Proof.Gen.ReferenceIdeal.Run
import proofs.«157286_j47304769798157_1_alg».proof.Proof.Gen.ReferenceIdeal.Read
import Idealize.ShloMosaic.Adequacy
import Idealize.ShloMosaic.Init
import proofs.«157286_j47304769798157_1_alg».proof.Proof.KernelRun
import proofs.«157286_j47304769798157_1_alg».proof.Proof.Reference
import proofs.«157286_j47304769798157_1_alg».proof.Proof.SameWeight

noncomputable section

namespace Cert.Proof

open Idealize.ShloMosaic Idealize.SL.Sem

/-- The kernel at the word level runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the output at the one formula of x, the
    transposed dense weight and the bias; the two programs' weights are the same term of the same arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.Bridge.result_eq_affine,
    (hagree c).1, (hagree c).2.1, (hagree c).2.2.1, (hagree c).2.2.2.1, (hagree c).2.2.2.2]
  exact congrArg (fun w => Cert.DenseAffine.affine _ w _) (Cert.Proof.SameWeight.denseT_eq _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
